-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S8x1024x4096 : Shape := ⟨3, ![8, 1024, 4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_

variable [Facts]

def fn_part1 {F : FTy → Type} [FloatOps F] (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  main_v18

def fn {F : FTy → Type} [FloatOps F] (main_arg0 : FVec F S1024x4096 .f32) (main_arg1 : FVec F S8x1024x4096 .f32) (main_arg2 : FVec F S8x1024x4096 .f32) (main_arg3 : FVec F S1024x4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x1024x4096 .f32 := Host.absf main_arg2
  let main_cst_2 : FVec F S_ .f32 := constant S_ .f32 0x7F800000#32
  let main_v10 : FVec F S8x1024x4096 .f32 := broadcastInDim S8x1024x4096 ![] bcast_S_S8x1024x4096 main_cst_2
  let main_v11 : IVec S8x1024x4096 1 := cmpf .olt main_v9 main_v10
  let main_c_3 : IVec S_ 1 := constantI S_ 1 1#1
  let main_v12 : IVec S_ 1 := (fun x v => Host.reduce IntOp.andi x v reducesTo_S8x1024x4096_S_d0_1_2 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_v13 main_v16
-- ==== Kernel.lean ====
abbrev S1024x4096 : Shape := ⟨2, ![1024, 4096]⟩
abbrev S8x1024x4096 : Shape := ⟨3, ![8, 1024, 4096]⟩
abbrev S1024x1 : Shape := ⟨2, ![1024, 1]⟩
abbrev S32x4096 : Shape := ⟨2, ![32, 4096]⟩
abbrev S8x32x4096 : Shape := ⟨3, ![8, 32, 4096]⟩
abbrev S32x1 : Shape := ⟨2, ![32, 1]⟩
abbrev S32 : Shape := ⟨1, ![32]⟩
abbrev S1024 : Shape := ⟨1, ![1024]⟩
abbrev S_ : Shape := ⟨0, ![]⟩
abbrev S1 : Shape := ⟨1, ![1]⟩

abbrev nBuf : Space → Nat
  | .hbm => 11
  | .vmem => 10
  | .smem => 0
  | _ => 0

abbrev bufTy : (tb : Table) → Fin (tcTables nBuf tb) → BufTy
  | .hbm, ⟨0, _⟩ => ⟨S1024x4096, .f32⟩
  | .hbm, ⟨1, _⟩ => ⟨S8x1024x4096, .f32⟩
  | .hbm, ⟨2, _⟩ => ⟨S8x1024x4096, .f32⟩
  | .hbm, ⟨3, _⟩ => ⟨S1024x4096, .f32⟩
  | .hbm, ⟨4, _⟩ => ⟨S1024x1, .f32⟩
  | .hbm, ⟨5, _⟩ => ⟨S1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1, .f32⟩
  | .local _ .vmem, ⟨0, _⟩ => ⟨S32x4096, .f32⟩
  | .local _ .vmem, ⟨1, _⟩ => ⟨S32x4096, .f32⟩
  | .local _ .vmem, ⟨2, _⟩ => ⟨S8x32x4096, .f32⟩
  | .local _ .vmem, ⟨3, _⟩ => ⟨S8x32x4096, .f32⟩
  | .local _ .vmem, ⟨4, _⟩ => ⟨S8x32x4096, .f32⟩
  | .local _ .vmem, ⟨5, _⟩ => ⟨S8x32x4096, .f32⟩
  | .local _ .vmem, ⟨6, _⟩ => ⟨S32x4096, .f32⟩
  | .local _ .vmem, ⟨7, _⟩ => ⟨S32x4096, .f32⟩
  | .local _ .vmem, ⟨8, _⟩ => ⟨S32x1, .f32⟩
  | .local _ .vmem, ⟨9, _⟩ => ⟨S32x1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S32x4096_S32x4096_0_0 : ∀ a, (![0, 0] : Fin 2 → Nat) a + S32x4096.size a ≤ S32x4096.size a
  h_S32x4096 : 0 < S32x4096.numel
  inb_S8x32x4096_S8x32x4096_0_0_0 : ∀ a, (![0, 0, 0] : Fin 3 → Nat) a + S8x32x4096.size a ≤ S8x32x4096.size a
  h_S8x32x4096 : 0 < S8x32x4096.numel
  reduces_S8x32x4096_S32x4096 : S8x32x4096.Reduces [0] S32x4096
  reduces_S32x4096_S32 : S32x4096.Reduces [1] S32
  shapeCasts_S32_S32x1 : S32.ShapeCasts S32x1
  inb_S32x1_S32x1_0_0 : ∀ a, (![0, 0] : Fin 2 → Nat) a + S32x1.size a ≤ S32x1.size a
  h_S32x1 : 0 < S32x1.numel
  shapeCasts_S1024x1_S1024 : S1024x1.ShapeCasts S1024
  reducesTo_S1024_S_d0 : S1024.ReducesTo [0] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S1024x4096.size a
  hwx0_0 : ∀ i : grid0.Coords, EltTy.bits .f32 = 32 ∨ (Rect.block (s := S1024x4096) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32x4096.size a ≤ S8x1024x4096.size a
  hwx0_1 : ∀ i : grid0.Coords, EltTy.bits .f32 = 32 ∨ (Rect.block (s := S8x1024x4096) S8x32x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32x4096.size a ≤ S8x1024x4096.size a
  hwx0_2 : ∀ i : grid0.Coords, EltTy.bits .f32 = 32 ∨ (Rect.block (s := S8x1024x4096) S8x32x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x4096.size a ≤ S1024x4096.size a
  hwx0_3 : ∀ i : grid0.Coords, EltTy.bits .f32 = 32 ∨ (Rect.block (s := S1024x4096) S32x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S1024x1.size a
  hwx0_4 : ∀ i : grid0.Coords, EltTy.bits .f32 = 32 ∨ (Rect.block (s := S1024x1) S32x1.size (cc0_transform_4 i) (hinb0_4 i)).WholeWords (EltTy.packing .f32)

variable [Facts₀]

abbrev win0_0 : Pipeline.Window sig grid0 :=
  Pipeline.Window.ofSpec (Memref.whole main_arg0) S32x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x32x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x32x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S32x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S8x1024x4096 : Shape := ⟨3, ![8, 1024, 4096]⟩
abbrev S_ : Shape := ⟨0, ![]⟩
abbrev S1024 : Shape := ⟨1, ![1024]⟩
abbrev S1 : Shape := ⟨1, ![1]⟩

abbrev nBuf : Space → Nat
  | .hbm => 96
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S8x1024x4096, .f32⟩
  | .hbm, ⟨2, _⟩ => ⟨S8x1024x4096, .f32⟩
  | .hbm, ⟨3, _⟩ => ⟨S1024x4096, .f32⟩
  | .hbm, ⟨4, _⟩ => ⟨S_, .f32⟩
  | .hbm, ⟨5, _⟩ => ⟨S1024x4096, .f32⟩
  | .hbm, ⟨6, _⟩ => ⟨S_, .f32⟩
  | .hbm, ⟨7, _⟩ => ⟨S1024x4096, .f32⟩
  | .hbm, ⟨8, _⟩ => ⟨S1024x4096, .f32⟩
  | .hbm, ⟨9, _⟩ => ⟨S_, .f32⟩
  | .hbm, ⟨10, _⟩ => ⟨S1024x4096, .f32⟩
  | .hbm, ⟨11, _⟩ => ⟨S_, .f32⟩
  | .hbm, ⟨12, _⟩ => ⟨S1024x4096, .f32⟩
  | .hbm, ⟨13, _⟩ => ⟨S1024x4096, .f32⟩
  | .hbm, ⟨14, _⟩ => ⟨S1024x4096, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024x4096, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1024x4096, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1024x4096, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S_, .f32⟩
  | .hbm, ⟨41, _⟩ => ⟨S1024, .f32⟩
  | .hbm, ⟨42, _⟩ => ⟨S1024, .f32⟩
  | .hbm, ⟨43, _⟩ => ⟨S1024x4096, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1024x4096, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S1024, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S1024x4096, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S1024x4096, .f32⟩
  | .hbm, ⟨66, _⟩ => ⟨S_, .f32⟩
  | .hbm, ⟨67, _⟩ => ⟨S1024, .f32⟩
  | .hbm, ⟨68, _⟩ => ⟨S1024, .f32⟩
  | .hbm, ⟨69, _⟩ => ⟨S_, .f32⟩
  | .hbm, ⟨70, _⟩ => ⟨S1024, .f32⟩
  | .hbm, ⟨71, _⟩ => ⟨S1024, .f32⟩
  | .hbm, ⟨72, _⟩ => ⟨S1024x4096, .f32⟩
  | .hbm, ⟨73, _⟩ => ⟨S_, .f32⟩
  | .hbm, ⟨74, _⟩ => ⟨S1024, .f32⟩
  | .hbm, ⟨75, _⟩ => ⟨S1024, .f32⟩
  | .hbm, ⟨76, _⟩ => ⟨S1024, .f32⟩
  | .hbm, ⟨77, _⟩ => ⟨S_, .f32⟩
  | .hbm, ⟨78, _⟩ => ⟨S1024, .f32⟩
  | .hbm, ⟨79, _⟩ => ⟨S1024, .f32⟩
  | .hbm, ⟨80, _⟩ => ⟨S1024, .f32⟩
  | .hbm, ⟨81, _⟩ => ⟨S1024, .f32⟩
  | .hbm, ⟨82, _⟩ => ⟨S1024, .f32⟩
  | .hbm, ⟨83, _⟩ => ⟨S1024, .f32⟩
  | .hbm, ⟨84, _⟩ => ⟨S1024, .f32⟩
  | .hbm, ⟨85, _⟩ => ⟨S1024, .f32⟩
  | .hbm, ⟨86, _⟩ => ⟨S_, .f32⟩
  | .hbm, ⟨87, _⟩ => ⟨S1024, .f32⟩
  | .hbm, ⟨88, _⟩ => ⟨S1024, .f32⟩
  | .hbm, ⟨89, _⟩ => ⟨S1024, .f32⟩
  | .hbm, ⟨90, _⟩ => ⟨S1024, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S1, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_v9 : Ref sig .tc := ⟨.hbm, 24, rfl⟩
abbrev main_cst_4 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_6 : Ref sig .tc := ⟨.hbm, 33, rfl⟩
abbrev main_v16 : Ref sig .tc := ⟨.hbm, 34, rfl⟩
abbrev main_v17 : Ref sig .tc := ⟨.hbm, 35, rfl⟩
abbrev main_call2_v0 : Ref sig .tc := ⟨.hbm, 36, rfl⟩
abbrev main_call2_cst : Ref sig .tc := ⟨.hbm, 37, rfl⟩
abbrev main_call2_v1 : Ref sig .tc := ⟨.hbm, 38, rfl⟩
abbrev main_v18 : Ref sig .tc := ⟨.hbm, 39, rfl⟩
abbrev main_cst_7 : Ref sig .tc := ⟨.hbm, 40, rfl⟩
abbrev main_v19 : Ref sig .tc := ⟨.hbm, 41, rfl⟩
abbrev main_v20 : Ref sig .tc := ⟨.hbm, 42, rfl⟩
abbrev main_call3_v0 : Ref sig .tc := ⟨.hbm, 43, rfl⟩
abbrev main_call3_cst : Ref sig .tc := ⟨.hbm, 44, rfl⟩
abbrev main_call3_v1 : Ref sig .tc := ⟨.hbm, 45, rfl⟩
abbrev main_v21 : Ref sig .tc := ⟨.hbm, 46, rfl⟩
abbrev main_cst_8 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_9 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_10 : Ref sig .tc := ⟨.hbm, 55, rfl⟩
abbrev main_v28 : Ref sig .tc := ⟨.hbm, 56, rfl⟩
abbrev main_v29 : Ref sig .tc := ⟨.hbm, 57, rfl⟩
abbrev main_call4_v0 : Ref sig .tc := ⟨.hbm, 58, rfl⟩
abbrev main_call4_cst : Ref sig .tc := ⟨.hbm, 59, rfl⟩
abbrev main_call4_v1 : Ref sig .tc := ⟨.hbm, 60, rfl⟩
abbrev main_v30 : Ref sig .tc := ⟨.hbm, 61, rfl⟩
abbrev main_cst_11 : Ref sig .tc := ⟨.hbm, 62, rfl⟩
abbrev main_v31 : Ref sig .tc := ⟨.hbm, 63, rfl⟩
abbrev main_v32 : Ref sig .tc := ⟨.hbm, 64, rfl⟩
abbrev main_call5_v0 : Ref sig .tc := ⟨.hbm, 65, rfl⟩
abbrev main_call5_cst : Ref sig .tc := ⟨.hbm, 66, rfl⟩
abbrev main_call5_v1 : Ref sig .tc := ⟨.hbm, 67, rfl⟩
abbrev main_v33 : Ref sig .tc := ⟨.hbm, 68, rfl⟩
abbrev main_cst_12 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_13 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_14 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_15 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_16 : Ref sig .tc := ⟨.hbm, 91, rfl⟩
abbrev main_v52 : Ref sig .tc := ⟨.hbm, 92, rfl⟩
abbrev main_cst_17 : Ref sig .tc := ⟨.hbm, 93, rfl⟩
abbrev main_v53 : Ref sig .tc := ⟨.hbm, 94, rfl⟩
abbrev main_v54 : Ref sig .tc := ⟨.hbm, 95, rfl⟩

abbrev nD : Nat := 1
abbrev τ : Topo := Topo.v7x

variable {F : FTy → Type} [FloatOps F]

class Facts₀ : Prop where
  reducesTo_S8x1024x4096_S1024x4096_d0 : S8x1024x4096.ReducesTo [0] S1024x4096
  h_S_ : 0 < S_.numel
  bcast_S_S1024x4096 : S_.BroadcastsInDim S1024x4096 (![] : Fin 0 → Fin S1024x4096.rank)
  reducesTo_S1024x4096_S1024_d1 : S1024x4096.ReducesTo [1] S1024
  bcast_S_S1024 : S_.BroadcastsInDim S1024 (![] : Fin 0 → Fin S1024.rank)
  reducesTo_S1024_S_d0 : S1024.ReducesTo [0] S_
  shapeCasts_S_S1 : S_.ShapeCasts S1

variable [Facts₀]

class Facts : Prop extends Facts₀ where

variable [Facts]
-- ==== Proof.RowLoss.lean ====
/-
  The contrastive row loss, as a function on the extended reals.

  For one sample row the program reads a base row `b`, eight positive rows `p k`, eight cross rows `q k`
  and a negative row `n`, each of 4096 features. With `mean8 p` the feature-wise mean of the eight rows,
  `cosT a b = (⟨a, b⟩ / (max ‖a‖ ε · max ‖b‖ ε)) / 1` the clamped cosine similarity at temperature one, the
  row's loss is

    `-log ((e^c₁ + e^c₂) / (e^cₙ + (e^c₁ + e^c₂)) + ε)`,  c₁ = cosT b (mean8 p), c₂ = cosT b (mean8 q), cₙ = cosT b n,

  every operation the exact one of the extended reals (`Ideal.div`, `Ideal.sqrt`, `Ideal.exp`, `Ideal.log`),
  every literal the extended real its f32 pattern denotes. `rows` reads the loss of row `r` off the four
  whole argument arrays. Nothing here needs the inputs finite: both programs compute this very term, so no
  algebraic law beyond `0 - x = -x` and `0 + s = s` is used.
-/
import Idealize.ShloMosaic.PureOps.Ideal.Laws
import Idealize.ShloMosaic.Lib.ValueIdx

noncomputable section

namespace ContrastRow

open Idealize.ShloMosaic Idealize.ShloMosaic.ValueIdx

/-- The mean of the eight sample rows at one feature: their sum divided by the literal `8.0`. -/
def mean8 (p : Fin 8 → Fin 4096 → EReal) (d : Fin 4096) : EReal :=
  Ideal.div (∑ k : Fin 8, p k d) (Ideal.ofBits .f32 0x41000000#32)

/-- The inner product of two rows. -/
def dot (a b : Fin 4096 → EReal) : EReal := ∑ d : Fin 4096, a d * b d

/-- A row's Euclidean norm, clamped below by the literal `1e-8`. -/
def cnorm (a : Fin 4096 → EReal) : EReal := max (Ideal.sqrt (dot a a)) (Ideal.ofBits .f32 0x322BCC77#32)

/-- The clamped cosine similarity of two rows, divided by the temperature `1.0`. -/
def cosT (a b : Fin 4096 → EReal) : EReal :=
  Ideal.div (Ideal.div (dot a b) (cnorm a * cnorm b)) (Ideal.ofBits .f32 0x3F800000#32)

/-- From the three similarities to the loss: `-log ((e^c₁ + e^c₂) / (e^cₙ + (e^c₁ + e^c₂)) + ε)`. -/
def ofCos (c1 c2 cn : EReal) : EReal :=
  -(Ideal.log (Ideal.div (Ideal.exp c1 + Ideal.exp c2) (Ideal.exp cn + (Ideal.exp c1 + Ideal.exp c2))
      + Ideal.ofBits .f32 0x322BCC77#32))

/-- One row's loss from its base row, its eight positive and eight cross rows, and its negative row. -/
def loss (b : Fin 4096 → EReal) (p q : Fin 8 → Fin 4096 → EReal) (n : Fin 4096 → EReal) : EReal :=
  ofCos (cosT b (mean8 p)) (cosT b (mean8 q)) (cosT b n)

/-- Row `r`'s loss read off the four whole argument arrays. -/
def rows (x0 : (⟨2, ![1024, 4096]⟩ : Shape).Idx → EReal) (x1 x2 : (⟨3, ![8, 1024, 4096]⟩ : Shape).Idx → EReal)
    (x3 : (⟨2, ![1024, 4096]⟩ : Shape).Idx → EReal) (r : Fin 1024) : EReal :=
  loss (fun d => x0 (ix2 r d)) (fun k d => x1 (ix3 k r d)) (fun k d => x2 (ix3 k r d)) (fun d => x3 (ix2 r d))

/-- The loss depends on its four row arguments only. -/
theorem loss_congr {b b' : Fin 4096 → EReal} {p p' q q' : Fin 8 → Fin 4096 → EReal} {n n' : Fin 4096 → EReal}
    (hb : b = b') (hp : p = p') (hq : q = q') (hn : n = n') : loss b p q n = loss b' p' q' n' := by
  subst hb hp hq hn; rfl

/-- Subtracting from the f32 zero is negation. -/
theorem zero_sub_eq (x : EReal) : Ideal.ofBits .f32 0x00000000#32 - x = -x := by
  rw [Ideal.ofBits_zero_f32, zero_sub]

/-- Adding onto the f32 zero changes nothing. -/
theorem zero_add_eq (x : EReal) : Ideal.ofBits .f32 0x00000000#32 + x = x := by
  rw [Ideal.ofBits_zero_f32, zero_add]

end ContrastRow

end
-- ==== Proof.LibKeepdims.lean ====
/-
  Keepdims layouts read at an index, for values of any element type.

  A reduction written with `keepdims=True` leaves a unit axis behind and is then broadcast back over the
  reduced axis. Two of the layout steps this produces are read here at an index given by coordinates:

  * a vector `[a]` recast as a column `[a, 1]` holds, at `(i, u)`, the vector's entry `i` (the unit
    coordinate `u` can only be `0`, and the row-major positions `i` and `i * 1 + u` agree);
  * a column `[a, 1]` broadcast to `[a, b]` holds, at `(p, c)`, the column's entry `(p, 0)`: the unit axis
    is read at `0`, the other axis at the same coordinate (when `a = 1` that coordinate is `0` anyway).

  Together with the row forms (`[a] → [1, a]` and `[1, b] → [a, b]`) of the layout library these cover both
  operands of `rowsum[:, None] + colsum[None, :]`.
-/
import Idealize.ShloMosaic.Lib.ValueLayout

namespace KeepdimsLayout

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsLayout
-- ==== Proof.KernelRow.lean ====
/-
  What one grid point of the kernel leaves in its output block, row by row.

  At a grid point the body holds a [32, 4096] base block `x0`, two [8, 32, 4096] sample blocks `x1`, `x2` and
  a [32, 4096] negative block `x3`, and stores a [32, 1] column. Written as block operations the stored
  column is `lossBlock (cosBlock x0 (mean x1)) (cosBlock x0 (mean x2)) (cosBlock x0 x3)`, where `mean` is the
  sum over the eight samples divided by 8, `cosBlock a b` the lane sums ⟨a, b⟩, ⟨a, a⟩, ⟨b, b⟩ kept as columns and
  combined into the clamped cosine, and `lossBlock` the pointwise `0 - log (…)`. Read at row `p` every lane sum is
  the sum over the 4096 features of that row and every sample sum the sum over the 8 samples, so the column's
  entry `p` is the row loss `ContrastRow.loss` of row `p` of each block.
-/
import proofs.«174810_j22539988369558_1_alg».proof.Proof.Gen.KernelIdeal.Frame
import proofs.«174810_j22539988369558_1_alg».proof.Proof.RowLoss
import proofs.«174810_j22539988369558_1_alg».proof.Proof.LibKeepdims
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Row

open Cert.KernelIdeal Cert.KernelIdeal.Gen

/-- The sum along the 4096 lanes of each of the 32 rows, kept as a [32, 1] column. -/
def colsum (v : FVec Ideal S32x4096 .f32) : FVec Ideal S32x1 .f32 :=
  shapeCast S32x1 (multiReduction .add [1] S32 v 0x00000000#32 reduces_S32x4096_S32 (.inl rfl) rfl) shapeCasts_S32_S32x1

/-- Row `p` of the column is the sum over that row's 4096 entries. -/
theorem colsum_apply (v : FVec Ideal S32x4096 .f32) (p : Fin 32) :
    colsum v (ix2 p (0 : Fin 1)) = ∑ d : Fin 4096, v (ix2 p d) := by
  unfold colsum
  refine (KeepdimsLayout.shapeCast_a_a1_apply _ shapeCasts_S32_S32x1 p 0).trans ?_
  refine (Ideal.multiReduction_add_single v 0x00000000#32 reduces_S32x4096_S32 (.inl rfl) rfl (ix1 p)).trans ?_
  refine Finset.sum_congr rfl fun d _ => congrArg v ?_
  exact funext fun a => Fin.ext (by match a with | ⟨0, _⟩ => rfl | ⟨1, _⟩ => rfl)

/-- The mean over the eight samples, read at (row, feature): the eight entries' sum divided by 8. -/
theorem mean_apply (x : FVec Ideal S8x32x4096 .f32) (p : Fin 32) (d : Fin 4096) :
    k0_pay2 (F := Ideal) x (ix2 p d) = ContrastRow.mean8 (fun k d => x (ix3 k p d)) d := by
  unfold k0_pay2 ContrastRow.mean8
  show Ideal.div (multiReduction .add [0] S32x4096 x 0x00000000#32 reduces_S8x32x4096_S32x4096 (.inl rfl) rfl (ix2 p d))
      (Ideal.ofBits .f32 0x41000000#32) = _
  refine congrArg (fun s => Ideal.div s (Ideal.ofBits .f32 0x41000000#32)) ?_
  refine (Ideal.multiReduction_add_single x 0x00000000#32 reduces_S8x32x4096_S32x4096 (.inl rfl) rfl (ix2 p d)).trans ?_
  refine Finset.sum_congr rfl fun k _ => congrArg x ?_
  exact funext fun a => Fin.ext (by match a with | ⟨0, _⟩ => rfl | ⟨1, _⟩ => rfl | ⟨2, _⟩ => rfl)

/-- The clamped cosine similarity of the rows of two [32, 4096] blocks, as a [32, 1] column. -/
def cosBlock (a b : FVec Ideal S32x4096 .f32) : FVec Ideal S32x1 .f32 :=
  divf (divf (colsum (mulf a b))
      (mulf (maximumf (sqrt (colsum (mulf a a))) (broadcast S32x1 (Scalar.ofBits .f32 0x322BCC77#32)))
        (maximumf (sqrt (colsum (mulf b b))) (broadcast S32x1 (Scalar.ofBits .f32 0x322BCC77#32)))))
    (broadcast S32x1 (Scalar.ofBits .f32 0x3F800000#32))

/-- Row `p` of it is the clamped cosine of row `p` of each block. -/
theorem cosBlock_apply (a b : FVec Ideal S32x4096 .f32) (p : Fin 32) :
    cosBlock a b (ix2 p (0 : Fin 1)) = ContrastRow.cosT (fun d => a (ix2 p d)) (fun d => b (ix2 p d)) := by
  unfold cosBlock ContrastRow.cosT ContrastRow.cnorm ContrastRow.dot
  show Ideal.div (Ideal.div (colsum (mulf a b) (ix2 p 0))
      (max (Ideal.sqrt (colsum (mulf a a) (ix2 p 0))) (Ideal.ofBits .f32 0x322BCC77#32)
        * max (Ideal.sqrt (colsum (mulf b b) (ix2 p 0))) (Ideal.ofBits .f32 0x322BCC77#32)))
    (Ideal.ofBits .f32 0x3F800000#32) = _
  rw [colsum_apply, colsum_apply, colsum_apply]
  rfl

/-- The pointwise end of the body: `0 - log ((e^c₁ + e^c₂) / (e^cₙ + (e^c₁ + e^c₂)) + ε)` on [32, 1] columns. -/
def lossBlock (c1 c2 cn : FVec Ideal S32x1 .f32) : FVec Ideal S32x1 .f32 :=
  subf (broadcast S32x1 (Scalar.ofBits .f32 0x00000000#32))
    (log (addf (divf (addf (exp c1) (exp c2)) (addf (exp cn) (addf (exp c1) (exp c2))))
      (broadcast S32x1 (Scalar.ofBits .f32 0x322BCC77#32))))

theorem lossBlock_apply (c1 c2 cn : FVec Ideal S32x1 .f32) (i : S32x1.Idx) :
    lossBlock c1 c2 cn i = ContrastRow.ofCos (c1 i) (c2 i) (cn i) := by
  unfold lossBlock ContrastRow.ofCos
  exact ContrastRow.zero_sub_eq _

/-- The body's stored value is that composition of block operations: the printed payloads are these
    operations in the same order, let-bound. -/
theorem pay_eq (x0 x3 : FVec Ideal S32x4096 .f32) (x1 x2 : FVec Ideal S8x32x4096 .f32) :
    k0_pay1 (F := Ideal) x0 x3 (k0_pay3 x0 x1) (k0_pay4 x0 x2) (k0_pay5 x0) (k0_pay6 x2)
      = lossBlock (cosBlock x0 (k0_pay2 x1)) (cosBlock x0 (k0_pay2 x2)) (cosBlock x0 x3) := rfl

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block: its one store covers the block, and every load reads a whole
    block, so it is the stored value of the four input blocks. -/
theorem out_eq (x0 x3 : FVec Ideal S32x4096 .f32) (x1 x2 : FVec Ideal S8x32x4096 .f32) :
    out0_4 (F := Ideal) x0 x1 x2 x3 = lossBlock (cosBlock x0 (k0_pay2 x1)) (cosBlock x0 (k0_pay2 x2)) (cosBlock x0 x3) := by
  unfold out0_4
  rw [View.canon_unit_zero hz2]
  simp only [View.ld_unit_zero (S := S32x4096) hz2, View.ld_unit_zero (S := S8x32x4096) hz3]
  exact pay_eq x0 x3 x1 x2

/-- Entry `p` of the output block is the row loss of row `p` of the four input blocks. -/
theorem out_apply (x0 x3 : FVec Ideal S32x4096 .f32) (x1 x2 : FVec Ideal S8x32x4096 .f32) (p : Fin 32) :
    out0_4 (F := Ideal) x0 x1 x2 x3 (ix2 p (0 : Fin 1))
      = ContrastRow.loss (fun d => x0 (ix2 p d)) (fun k d => x1 (ix3 k p d)) (fun k d => x2 (ix3 k p d)) (fun d => x3 (ix2 p d)) := by
  rw [out_eq, lossBlock_apply, cosBlock_apply, cosBlock_apply, cosBlock_apply]
  unfold ContrastRow.loss
  have e1 : (fun d => k0_pay2 (F := Ideal) x1 (ix2 p d)) = ContrastRow.mean8 (fun k d => x1 (ix3 k p d)) :=
    funext fun d => mean_apply x1 p d
  have e2 : (fun d => k0_pay2 (F := Ideal) x2 (ix2 p d)) = ContrastRow.mean8 (fun k d => x2 (ix3 k p d)) :=
    funext fun d => mean_apply x2 p d
  rw [e1, e2]

end Cert.KernelIdeal.Row

end
-- ==== Proof.KernelArray.lean ====
/-
  From the kernel's blocks to its whole output column.

  Grid point `t` (of 32) stages rows `32 t … 32 t + 31` of every argument array — all 4096 features of the two
  [1024, 4096] arrays, all 8 samples and all 4096 features of the two [8, 1024, 4096] arrays — and writes back
  rows `32 t … 32 t + 31` of the [1024, 1] output. Entry `p` of the block it writes is the loss of row `p` of its
  input blocks, which are row `32 t + p` of the arrays, so the block is the restriction of the one column
  `col` whose entry `r` is `ContrastRow.rows … r`. The 32 blocks tile the column (row `r` lies in block
  `r / 32`), so after the region the output array is `col`.
-/
import proofs.«174810_j22539988369558_1_alg».proof.Proof.KernelRow
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- The printed index maps, decided over the 32 grid points: every window's block index is the point's number on
    the row axis and zero on every other axis. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The base block at point `t`, at (row `p`, feature `d`), is the base array at row `32 t + p`. -/
theorem base_read (c : Dev nD) (t : Fin cfg0.N) (p : Fin 32) (d : Fin 4096) (r : Fin 1024) (hr : r.val = 32 * t.val + p.val) :
    (iblk m c 0 t : FVec Ideal S32x4096 .f32) (ix2 p d) = (V m c main_arg0 : S1024x4096.Idx → EReal) (ix2 r d) := by
  obtain ⟨e0, e1, -⟩ := idx_facts t
  unfold iblk
  rw [View.read_apply]
  show V m c main_arg0 _ = V m c main_arg0 _
  refine congrArg (V m c main_arg0) ?_
  funext a
  apply Fin.ext
  match a with
  | ⟨0, _⟩ => show win0_0.index t 0 * 32 + 1 * p.val = r.val; rw [e0, hr]; omega
  | ⟨1, _⟩ => show win0_0.index t 1 * 4096 + 1 * d.val = d.val; rw [e1]; omega

/-- The negative block likewise. -/
theorem neg_read (c : Dev nD) (t : Fin cfg0.N) (p : Fin 32) (d : Fin 4096) (r : Fin 1024) (hr : r.val = 32 * t.val + p.val) :
    (iblk m c 3 t : FVec Ideal S32x4096 .f32) (ix2 p d) = (V m c main_arg3 : S1024x4096.Idx → EReal) (ix2 r d) := by
  obtain ⟨-, -, -, -, -, -, -, -, e0, e1, -⟩ := idx_facts t
  unfold iblk
  rw [View.read_apply]
  show V m c main_arg3 _ = V m c main_arg3 _
  refine congrArg (V m c main_arg3) ?_
  funext a
  apply Fin.ext
  match a with
  | ⟨0, _⟩ => show win0_3.index t 0 * 32 + 1 * p.val = r.val; rw [e0, hr]; omega
  | ⟨1, _⟩ => show win0_3.index t 1 * 4096 + 1 * d.val = d.val; rw [e1]; omega

/-- The positive-sample block at point `t`, at (sample `k`, row `p`, feature `d`), is the array at row `32 t + p`. -/
theorem pos_read (c : Dev nD) (t : Fin cfg0.N) (k : Fin 8) (p : Fin 32) (d : Fin 4096) (r : Fin 1024) (hr : r.val = 32 * t.val + p.val) :
    (iblk m c 1 t : FVec Ideal S8x32x4096 .f32) (ix3 k p d) = (V m c main_arg1 : S8x1024x4096.Idx → EReal) (ix3 k r d) := by
  obtain ⟨-, -, e0, e1, e2, -⟩ := idx_facts t
  unfold iblk
  rw [View.read_apply]
  show V m c main_arg1 _ = V m c main_arg1 _
  refine congrArg (V m c main_arg1) ?_
  funext a
  apply Fin.ext
  match a with
  | ⟨0, _⟩ => show win0_1.index t 0 * 8 + 1 * k.val = k.val; rw [e0]; omega
  | ⟨1, _⟩ => show win0_1.index t 1 * 32 + 1 * p.val = r.val; rw [e1, hr]; omega
  | ⟨2, _⟩ => show win0_1.index t 2 * 4096 + 1 * d.val = d.val; rw [e2]; omega

/-- The cross-sample block likewise. -/
theorem cross_read (c : Dev nD) (t : Fin cfg0.N) (k : Fin 8) (p : Fin 32) (d : Fin 4096) (r : Fin 1024) (hr : r.val = 32 * t.val + p.val) :
    (iblk m c 2 t : FVec Ideal S8x32x4096 .f32) (ix3 k p d) = (V m c main_arg2 : S8x1024x4096.Idx → EReal) (ix3 k r d) := by
  obtain ⟨-, -, -, -, -, e0, e1, e2, -⟩ := idx_facts t
  unfold iblk
  rw [View.read_apply]
  show V m c main_arg2 _ = V m c main_arg2 _
  refine congrArg (V m c main_arg2) ?_
  funext a
  apply Fin.ext
  match a with
  | ⟨0, _⟩ => show win0_2.index t 0 * 8 + 1 * k.val = k.val; rw [e0]; omega
  | ⟨1, _⟩ => show win0_2.index t 1 * 32 + 1 * p.val = r.val; rw [e1, hr]; omega
  | ⟨2, _⟩ => show win0_2.index t 2 * 4096 + 1 * d.val = d.val; rw [e2]; omega

/-- The whole output column as a function of the argument arrays as the region finds them: entry `r` is row
    `r`'s loss. -/
def col (c : Dev nD) : S1024x1.Idx → EReal := fun i =>
  ContrastRow.rows (V m c main_arg0 : S1024x4096.Idx → EReal) (V m c main_arg1 : S8x1024x4096.Idx → EReal)
    (V m c main_arg2 : S8x1024x4096.Idx → EReal) (V m c main_arg3 : S1024x4096.Idx → EReal) ⟨(i 0).val, (i 0).isLt⟩

/-- Entry `y` of the output block, for `y` with row coordinate `p`: the unit coordinate can only be zero. -/
theorem out_at (x0 x3 : FVec Ideal S32x4096 .f32) (x1 x2 : FVec Ideal S8x32x4096 .f32) (y : S32x1.Idx) (p : Fin 32) (hp : (y 0).val = p.val) :
    out0_4 (F := Ideal) x0 x1 x2 x3 y
      = ContrastRow.loss (fun d => x0 (ix2 p d)) (fun k d => x1 (ix3 k p d)) (fun k d => x2 (ix3 k p d)) (fun d => x3 (ix2 p d)) := by
  have hy : y = ix2 p (0 : Fin 1) := funext fun a => Fin.ext (by
    match a with
    | ⟨0, _⟩ => exact hp
    | ⟨1, _⟩ => have h1 : (y 1).val < 1 := (y 1).isLt; show (y 1).val = 0; omega)
  rw [hy]
  exact Row.out_apply x0 x3 x1 x2 p

/-- WHAT POINT `t` WRITES BACK is block `t` of the column. -/
theorem flushed_eq (c : Dev nD) (t : Fin cfg0.N) :
    (dats m 0 c).flushed 4 t = ((cfg0.win 4).blk t).view.read (Elt Ideal) (col m c) := by
  show (cfg0.win 4).cut (grid0.coords t) ((dats m 0 c).after 4 t) = _
  rw [after0_4]
  obtain ⟨-, -, -, -, -, -, -, -, -, -, e0, e1⟩ := idx_facts t
  funext j
  have hj : (j 0).val < 32 := (j 0).isLt
  have ht : t.val < 32 := by have h1 := t.isLt; have hN : cfg0.N = 32 := N_0; omega
  refine (out_at (iblk m c 0 t) (iblk m c 3 t) (iblk m c 1 t) (iblk m c 2 t) j ⟨(j 0).val, hj⟩ rfl).trans ?_
  show _ = ContrastRow.rows (V m c main_arg0 : S1024x4096.Idx → EReal) (V m c main_arg1 : S8x1024x4096.Idx → EReal)
    (V m c main_arg2 : S8x1024x4096.Idx → EReal) (V m c main_arg3 : S1024x4096.Idx → EReal)
    ⟨((((cfg0.win 4).blk t).view.emb j) 0).val, ((((cfg0.win 4).blk t).view.emb j) 0).isLt⟩
  have hr : ((((cfg0.win 4).blk t).view.emb j) 0).val = 32 * t.val + (j 0).val := by
    show win0_4.index t 0 * 32 + 1 * (j 0).val = _
    rw [e0]; omega
  unfold ContrastRow.rows
  exact ContrastRow.loss_congr
    (funext fun d => base_read m c t ⟨(j 0).val, hj⟩ d _ hr)
    (funext fun k => funext fun d => pos_read m c t k ⟨(j 0).val, hj⟩ d _ hr)
    (funext fun k => funext fun d => cross_read m c t k ⟨(j 0).val, hj⟩ d _ hr)
    (funext fun d => neg_read m c t ⟨(j 0).val, hj⟩ d _ hr)

/-- An index of the column is in point `t`'s block iff each coordinate is in the block's range on its axis. -/
theorem mem_blk (t : Fin cfg0.N) (i : S1024x1.Idx) :
    i ∈ ((cfg0.win 4).blk t).view.set ↔ ∀ a : Fin 2, win0_4.index t a * S32x1.size a ≤ (i a).val ∧ (i a).val < win0_4.index t a * S32x1.size a + S32x1.size a := by
  show i ∈ ((View.whole main_v0).slice (win0_4.rect t)).set ↔ _
  rw [View.set_slice_whole, Rect.mem_set_unit]
  exact Iff.rfl

/-- THE OUTPUT ARRAY after the region is the column: row `r` lies in the block of point `r / 32`. -/
theorem final_col (c : Dev nD) : (dats m 0 c).arrAt 4 cfg0.N = col m c :=
  (dats m 0 c).arrAt_eq_of_cover 4 (col m c) (fun t _ => flushed_eq m c t) fun i => by
    have hi0 : (i 0).val < 1024 := (i 0).isLt
    have hi1 : (i 1).val < 1 := (i 1).isLt
    have hN : cfg0.N = 32 := N_0
    obtain ⟨-, -, -, -, -, -, -, -, -, -, e0, e1⟩ := idx_facts ⟨(i 0).val / 32, by rw [hN]; omega⟩
    refine ⟨⟨(i 0).val / 32, by rw [hN]; omega⟩, flush0_4 _, ?_⟩
    rw [mem_blk]
    intro a
    match a with
    | ⟨0, _⟩ =>
      show win0_4.index ⟨(i 0).val / 32, _⟩ (0 : Fin 2) * 32 ≤ (i 0).val ∧ (i 0).val < win0_4.index ⟨(i 0).val / 32, _⟩ (0 : Fin 2) * 32 + 32
      rw [e0]; show (i 0).val / 32 * 32 ≤ (i 0).val ∧ (i 0).val < (i 0).val / 32 * 32 + 32; omega
    | ⟨1, _⟩ =>
      show win0_4.index ⟨(i 0).val / 32, _⟩ (1 : Fin 2) * 1 ≤ (i 1).val ∧ (i 1).val < win0_4.index ⟨(i 0).val / 32, _⟩ (1 : Fin 2) * 1 + 1
      rw [e1]; omega

end Cert.KernelIdeal.Whole

end
-- ==== Proof.KernelMean.lean ====
/-
  The kernel program's result: the mean of the output column.

  After the region the program views the [1024, 1] column as a [1024] vector, sums its entries from the f32
  zero, divides by the literal `1024.0` and views the scalar as a one-entry vector: `meanOfCol` of the column.
  With the column known after the region (`final_col`), the program's run ends with its result at
  `meanOfCol (col m c)` and its four argument arrays as they were.
-/
import proofs.«174810_j22539988369558_1_alg».proof.Proof.KernelArray
import Idealize.ShloMosaic.Lib.StableHlo.Run
import Idealize.ShloMosaic.Lib.Pipeline.FrameSuffix

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- The host operations after the region, as one function of the output column. -/
def meanOfCol (g : FVec Ideal S1024x1 .f32) : FVec Ideal S1 .f32 :=
  shapeCast S1 (Host.divf (Host.reduceAdd (shapeCast S1024 g shapeCasts_S1024x1_S1024)
      (constant (F := Ideal) S_ .f32 0x00000000#32) reducesTo_S1024_S_d0 h_S_)
    (constant (F := Ideal) S_ .f32 0x44800000#32)) shapeCasts_S_S1

/-- The result buffer after the host operations that follow the region: they read the region's output array,
    which is the column. -/
theorem tail_eq (c : Dev nD) :
    Pipeline.afterTail₀ cfgs (dats m) 0 (V0 m) [hostOps1] c main_v4 = meanOfCol (col m c) := by
  unfold Pipeline.afterTail₀
  show StableHlo.after hostOps1 _ (Proc.devRef .tc main_v4) = _
  after_results
  have h : Pipeline.withArrays (cfgs 0).spec c (V0 m c) (fun w => (dats m 0 c).arrAt w (cfgs 0).N) (Proc.devRef .tc main_v0)
      = col m c := (Pipeline.withArrays_arr spec0 launch0.win.arr_inj c _ _ 4).trans (final_col m c)
  rw [h]
  rfl

/-- The result buffer bypasses the region: it is unscoped and no window's array. -/
theorem result_bypasses : main_v4 ∈ Pipeline.restRefs sig (cfgs 0).spec :=
  Pipeline.mem_restRefs_of main_v4 rfl (fun w => by fin_cases w <;> decide)

/-- The kernel program's run, read: the result at the mean of the column, the arguments unchanged. -/
theorem run : θ_run defs (onTc (τ := τ) (main (F := Ideal))) ⟨m, fun _ => 0, ρ⟩ fun r => ∀ c : Dev nD,
      r.2.mem ((c.tc : Thread nD τ).loc main_v4) = meanOfCol (col m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v4 result_bypasses).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Whole

end
-- ==== Proof.RefRow.lean ====
/-
  The reference, row by row.

  The reference computes on whole arrays: the two sample means [1024, 4096], three clamped cosine
  similarities [1024] (each from three row sums over the 4096 features), the pointwise `-log (…)` [1024], and
  last the mean of those 1024 losses as a [1] tensor. Written as array operations its per-row vector is
  `lossRef (cosRef x0 (meanRef x1)) (cosRef x0 (meanRef x2)) (cosRef x0 x3)`; read at row `r`, every row sum is
  the sum over the row's 4096 entries (the initial value is the f32 zero) and every sample sum the sum over
  the 8 samples, so entry `r` is `ContrastRow.rows x0 x1 x2 x3 r`. The last three operations (sum of the 1024
  entries from zero, divide by 1024, view as [1]) are kept as one function `meanOfRows` of the per-row vector.
-/
import proofs.«174810_j22539988369558_1_alg».proof.Proof.Gen.ReferenceIdeal.Read
import proofs.«174810_j22539988369558_1_alg».proof.Proof.RowLoss
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.Row

open Cert.ReferenceIdeal Cert.ReferenceIdeal.Gen Cert.ReferenceIdeal.Read

/-- The host's sum along the 4096 features of each row, from the f32 zero. -/
def rsum (v : FVec Ideal S1024x4096 .f32) : FVec Ideal S1024 .f32 :=
  Host.reduceAdd v (constant (F := Ideal) S_ .f32 0x00000000#32) reducesTo_S1024x4096_S1024_d1 h_S_

theorem rsum_apply (v : FVec Ideal S1024x4096 .f32) (r : Fin 1024) :
    rsum v (ix1 r) = ∑ d : Fin 4096, v (ix2 r d) := by
  unfold rsum
  simp only [Host.reduceAdd, Ideal.hostReduceAdd_def]
  rw [Ideal.hostReduceAdd_single reducesTo_S1024x4096_S1024_d1 (by decide)]
  refine (ContrastRow.zero_add_eq _).trans ?_
  refine Finset.sum_congr rfl fun k _ => congrArg v ?_
  exact funext fun a => Fin.ext (by match a with | ⟨0, _⟩ => rfl | ⟨1, _⟩ => rfl)

/-- The host's sum over the eight samples, from the f32 zero. -/
def ssum (x : FVec Ideal S8x1024x4096 .f32) : FVec Ideal S1024x4096 .f32 :=
  Host.reduceAdd x (constant (F := Ideal) S_ .f32 0x00000000#32) reducesTo_S8x1024x4096_S1024x4096_d0 h_S_

theorem ssum_apply (x : FVec Ideal S8x1024x4096 .f32) (r : Fin 1024) (d : Fin 4096) :
    ssum x (ix2 r d) = ∑ k : Fin 8, x (ix3 k r d) := by
  unfold ssum
  simp only [Host.reduceAdd, Ideal.hostReduceAdd_def]
  rw [Ideal.hostReduceAdd_single reducesTo_S8x1024x4096_S1024x4096_d0 (by decide)]
  refine (ContrastRow.zero_add_eq _).trans ?_
  refine Finset.sum_congr rfl fun k _ => congrArg x ?_
  exact funext fun a => Fin.ext (by match a with | ⟨0, _⟩ => rfl | ⟨1, _⟩ => rfl | ⟨2, _⟩ => rfl)

/-- A scalar literal spread over the 1024 rows. -/
def fill (b : BitVec 32) : FVec Ideal S1024 .f32 :=
  broadcastInDim S1024 ![] bcast_S_S1024 (constant (F := Ideal) S_ .f32 b)

theorem fill_apply (b : BitVec 32) (i : S1024.Idx) : fill b i = Ideal.ofBits .f32 b := by
  unfold fill
  exact broadcastInDim_apply _ bcast_S_S1024 (constant (F := Ideal) S_ .f32 b) i (fun a => a.elim0) (fun a => a.elim0)

/-- The mean over the eight samples: their sum divided by the literal `8.0` spread over the array. -/
def meanRef (x : FVec Ideal S8x1024x4096 .f32) : FVec Ideal S1024x4096 .f32 :=
  Host.divf (ssum x) (broadcastInDim S1024x4096 ![] bcast_S_S1024x4096 (constant (F := Ideal) S_ .f32 0x41000000#32))

theorem meanRef_apply (x : FVec Ideal S8x1024x4096 .f32) (r : Fin 1024) (d : Fin 4096) :
    meanRef x (ix2 r d) = ContrastRow.mean8 (fun k d => x (ix3 k r d)) d := by
  unfold meanRef ContrastRow.mean8
  show Ideal.div (ssum x (ix2 r d))
      (broadcastInDim S1024x4096 ![] bcast_S_S1024x4096 (constant (F := Ideal) S_ .f32 0x41000000#32) (ix2 r d)) = _
  rw [ssum_apply]
  refine congrArg (Ideal.div _) ?_
  exact broadcastInDim_apply _ bcast_S_S1024x4096 (constant (F := Ideal) S_ .f32 0x41000000#32) (ix2 r d) (fun a => a.elim0) (fun a => a.elim0)

/-- The clamped cosine similarity of the rows of two [1024, 4096] arrays. -/
def cosRef (a b : FVec Ideal S1024x4096 .f32) : FVec Ideal S1024 .f32 :=
  Host.divf (Host.divf (rsum (mulf a b))
      (mulf (maximumf (Host.sqrt (rsum (mulf a a))) (fill 0x322BCC77#32))
        (maximumf (Host.sqrt (rsum (mulf b b))) (fill 0x322BCC77#32))))
    (fill 0x3F800000#32)

theorem cosRef_apply (a b : FVec Ideal S1024x4096 .f32) (r : Fin 1024) :
    cosRef a b (ix1 r) = ContrastRow.cosT (fun d => a (ix2 r d)) (fun d => b (ix2 r d)) := by
  unfold cosRef ContrastRow.cosT ContrastRow.cnorm ContrastRow.dot
  show Ideal.div (Ideal.div (rsum (mulf a b) (ix1 r))
      (max (Ideal.sqrt (rsum (mulf a a) (ix1 r))) (fill 0x322BCC77#32 (ix1 r))
        * max (Ideal.sqrt (rsum (mulf b b) (ix1 r))) (fill 0x322BCC77#32 (ix1 r))))
    (fill 0x3F800000#32 (ix1 r)) = _
  rw [rsum_apply, rsum_apply, rsum_apply, fill_apply, fill_apply]
  rfl

/-- The pointwise end: `-log ((e^c₁ + e^c₂) / (e^cₙ + (e^c₁ + e^c₂)) + ε)` on [1024] vectors. -/
def lossRef (c1 c2 cn : FVec Ideal S1024 .f32) : FVec Ideal S1024 .f32 :=
  Host.negf (Host.log (addf (Host.divf (addf (Host.exp c1) (Host.exp c2)) (addf (Host.exp cn) (addf (Host.exp c1) (Host.exp c2))))
    (fill 0x322BCC77#32)))

theorem lossRef_apply (c1 c2 cn : FVec Ideal S1024 .f32) (i : S1024.Idx) :
    lossRef c1 c2 cn i = ContrastRow.ofCos (c1 i) (c2 i) (cn i) := by
  unfold lossRef ContrastRow.ofCos
  show -(Ideal.log (Ideal.div (Ideal.exp (c1 i) + Ideal.exp (c2 i)) (Ideal.exp (cn i) + (Ideal.exp (c1 i) + Ideal.exp (c2 i)))
    + fill 0x322BCC77#32 i)) = _
  rw [fill_apply]

/-- The reference's per-row vector is that composition of array operations: its stages are these
    operations in the same order. -/
theorem perRow_eq (x0 x3 : FVec Ideal S1024x4096 .f32) (x1 x2 : FVec Ideal S8x1024x4096 .f32) :
    val_main_v51 (F := Ideal) x0 x1 x2 x3 = lossRef (cosRef x0 (meanRef x1)) (cosRef x0 (meanRef x2)) (cosRef x0 x3) := rfl

/-- Entry `r` of the per-row vector is row `r`'s loss. -/
theorem perRow_apply (x0 x3 : FVec Ideal S1024x4096 .f32) (x1 x2 : FVec Ideal S8x1024x4096 .f32) (r : Fin 1024) :
    val_main_v51 (F := Ideal) x0 x1 x2 x3 (ix1 r) = ContrastRow.rows x0 x1 x2 x3 r := by
  rw [perRow_eq, lossRef_apply, cosRef_apply, cosRef_apply, cosRef_apply]
  unfold ContrastRow.rows ContrastRow.loss
  have e1 : (fun d => meanRef x1 (ix2 r d)) = ContrastRow.mean8 (fun k d => x1 (ix3 k r d)) :=
    funext fun d => meanRef_apply x1 r d
  have e2 : (fun d => meanRef x2 (ix2 r d)) = ContrastRow.mean8 (fun k d => x2 (ix3 k r d)) :=
    funext fun d => meanRef_apply x2 r d
  rw [e1, e2]

/-- The mean of the 1024 row losses as the program's [1] result: sum from the f32 zero, divide by the
    literal `1024.0`, view the scalar as a one-entry vector. -/
def meanOfRows (y : FVec Ideal S1024 .f32) : FVec Ideal S1 .f32 :=
  shapeCast _ (Host.divf (Host.reduceAdd y (constant (F := Ideal) S_ .f32 0x00000000#32) reducesTo_S1024_S_d0 h_S_)
    (constant (F := Ideal) S_ .f32 0x44800000#32)) shapeCasts_S_S1

/-- The reference's result is the mean of its per-row vector. -/
theorem result_eq (x0 x3 : FVec Ideal S1024x4096 .f32) (x1 x2 : FVec Ideal S8x1024x4096 .f32) :
    val_main_v54 (F := Ideal) x0 x1 x2 x3 = meanOfRows (val_main_v51 (F := Ideal) x0 x1 x2 x3) := rfl

end Cert.ReferenceIdeal.Row

end
-- ==== Proof.lean ====
/-
  A contrastive loss over 1024 sample rows, computed by a row-blocked kernel and by whole-array host code,
  is one function of the inputs on the extended reals.

  For row `r` both programs form the means of the eight positive and the eight cross rows, three clamped
  cosine similarities `c₁, c₂, cₙ` of the base row against those two means and against the negative row, and
  the loss `-log ((e^c₁ + e^c₂) / (e^cₙ + (e^c₁ + e^c₂)) + ε)` (`ContrastRow.rows`); the result is the sum of the
  1024 losses divided by 1024. The kernel does the per-row work 32 rows at a grid point and leaves a
  [1024, 1] column (`Cert.KernelIdeal.Whole.final_col`), which the host code after it views as a [1024]
  vector and averages; the reference holds the [1024] vector directly (`Cert.ReferenceIdeal.Row.perRow_apply`).
  The column viewed as a vector is the reference's vector entry by entry (`perRow_bridge`), and the averaging
  code is the same three operations on both sides, so the two results are equal (`result_bridge`).

  Every operation is applied to the same operands in the same order on both sides: the kernel's lane sums and
  the host's row sums are the same finite sums, `0 - x` is `-x`, and the literals are the same f32 patterns.
  So no law that could fail at an infinity is used, and the precondition (finite inputs) is not opened.
  The three frames are the generated ones (the reference's is its generated run with the result dropped), and
  the idealization rewrote nothing, so `preserves` is `True`.
-/
import proofs.«174810_j22539988369558_1_alg».proof.Defs
import proofs.«174810_j22539988369558_1_alg».proof.Proof.Gen.Kernel
import proofs.«174810_j22539988369558_1_alg».proof.Proof.Gen.Kernel.Skeleton
import proofs.«174810_j22539988369558_1_alg».proof.Proof.Gen.Kernel.Launch
import proofs.«174810_j22539988369558_1_alg».proof.Proof.Gen.Kernel.Points
import proofs.«174810_j22539988369558_1_alg».proof.Proof.Gen.Kernel.Frame
import proofs.«174810_j22539988369558_1_alg».proof.Proof.Gen.KernelIdeal
import proofs.«174810_j22539988369558_1_alg».proof.Proof.Gen.KernelIdeal.Skeleton
import proofs.«174810_j22539988369558_1_alg».proof.Proof.Gen.KernelIdeal.Launch
import proofs.«174810_j22539988369558_1_alg».proof.Proof.Gen.KernelIdeal.Points
import proofs.«174810_j22539988369558_1_alg».proof.Proof.Gen.KernelIdeal.Frame
import proofs.«174810_j22539988369558_1_alg».proof.Proof.Gen.ReferenceIdeal
import proofs.«174810_j22539988369558_1_alg».proof.Proof.Gen.ReferenceIdeal.Run
import proofs.«174810_j22539988369558_1_alg».proof.Proof.Gen.ReferenceIdeal.Read
import proofs.«174810_j22539988369558_1_alg».proof.Proof.Gen.Pre_finite_inputs
import proofs.«174810_j22539988369558_1_alg».proof.Proof.KernelMean
import proofs.«174810_j22539988369558_1_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's [1024, 1] column viewed as a [1024] vector is the reference's per-row vector: entry `r` of
    the view is the column's entry `(r, 0)` (same row-major position), and both are row `r`'s loss. -/
theorem perRow_bridge (m : (ℓ : Loc Cert.KernelIdeal.nD Cert.KernelIdeal.τ Cert.KernelIdeal.sig) → Buf (Elt Ideal) ℓ)
    (c : Dev Cert.KernelIdeal.nD) :
    Cert.ReferenceIdeal.Read.val_main_v51 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = shapeCast Cert.KernelIdeal.S1024 (Cert.KernelIdeal.Whole.col m c) Cert.KernelIdeal.Gen.shapeCasts_S1024x1_S1024 := by
  funext i
  obtain ⟨r, rfl⟩ : ∃ r : Fin 1024, i = ix1 r := ⟨i 0, eq_ix1 i⟩
  rw [Cert.ReferenceIdeal.Row.perRow_apply]
  refine Eq.symm ((shapeCast_apply (Cert.KernelIdeal.Whole.col m c) Cert.KernelIdeal.Gen.shapeCasts_S1024x1_S1024
    (ix1 r) (ix2 r (0 : Fin 1)) ?_).trans ?_)
  · rw [Shape.rowMajor_val_two, Shape.rowMajor_val_one]
    show r.val * 1 + 0 = r.val
    omega
  · rfl

/-- The reference's result is the kernel program's: the same averaging of the same per-row vector. -/
theorem result_bridge (m : (ℓ : Loc Cert.KernelIdeal.nD Cert.KernelIdeal.τ Cert.KernelIdeal.sig) → Buf (Elt Ideal) ℓ)
    (c : Dev Cert.KernelIdeal.nD) :
    Cert.ReferenceIdeal.Read.val_main_v54 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.Whole.meanOfCol (Cert.KernelIdeal.Whole.col m c) := by
  rw [Cert.ReferenceIdeal.Row.result_eq, perRow_bridge m c]
  rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the mean of the 1024 row losses. -/
theorem algebraic : Cert.algebraic_KernelIdeal_ReferenceIdeal := by
  intro m ρ m' ρ' _ hagree
  refine ⟨fun c => Cert.KernelIdeal.Whole.meanOfCol (Cert.KernelIdeal.Whole.col m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, (hagree c).1, (hagree c).2.1, (hagree c).2.2.1, (hagree c).2.2.2]
  exact result_bridge m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
